-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64x128 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : FVec F S100000x64 .f32) (main_arg2 : IVec S1000000 32) (main_arg3 : IVec S1000000 32) (main_arg4 : FVec F S64x64 .f32) (main_arg5 : FVec F S64 .f32) (main_arg6 : FVec F S64x128 .f32) (main_arg7 : FVec F S64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S5000x64 : Shape := ⟨2, ![5000, 64]⟩
abbrev S_ : Shape := ⟨0, ![]⟩
abbrev S1000000x1 : Shape := ⟨2, ![1000000, 1]⟩
abbrev S1000000x64 : Shape := ⟨2, ![1000000, 64]⟩
abbrev S20000x64 : Shape := ⟨2, ![20000, 64]⟩

abbrev nBuf : Space → Nat
  | .hbm => 57
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x64, .f32⟩
  | .hbm, ⟨12, _⟩ => ⟨S100000x64, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S_, .f32⟩
  | .hbm, ⟨23, _⟩ => ⟨S20000x64, .f32⟩
  | .hbm, ⟨24, _⟩ => ⟨S1000000x1, .i32⟩
  | .hbm, ⟨25, _⟩ => ⟨S20000x64, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S1000000x64, .f32⟩
  | .hbm, ⟨50, _⟩ => ⟨S_, .f32⟩
  | .hbm, ⟨51, _⟩ => ⟨S100000x64, .f32⟩
  | .hbm, ⟨52, _⟩ => ⟨S1000000x1, .i32⟩
  | .hbm, ⟨53, _⟩ => ⟨S100000x64, .f32⟩
  | .hbm, ⟨54, _⟩ => ⟨S64x64, .f32⟩
  | .hbm, ⟨55, _⟩ => ⟨S1x64, .f32⟩
  | .hbm, ⟨56, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  slices_S64x128_S64x64_0_0 : S64x128.Slices ![0, 0] S64x64
  slices_S64x128_S64x64_0_64 : S64x128.Slices ![0, 64] S64x64
  shapeCasts_S5000x64_S5000x64 : S5000x64.ShapeCasts S5000x64
  bcast_S_S100000x64 : S_.BroadcastsInDim S100000x64 (![] : Fin 0 → Fin S100000x64.rank)
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1000000x64.size a
  hwx1_0 : ∀ i : grid1.Coords, EltTy.bits .f32 = 32 ∨ (Rect.block (s := S1000000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1000000x64.size a
  hwx1_1 : ∀ i : grid1.Coords, EltTy.bits .f32 = 32 ∨ (Rect.block (s := S1000000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S1000000x64.size a
  hwx1_5 : ∀ i : grid1.Coords, EltTy.bits .f32 = 32 ∨ (Rect.block (s := S1000000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S20000x64 : Shape := ⟨2, ![20000, 64]⟩
abbrev S1000000x128 : Shape := ⟨2, ![1000000, 128]⟩
abbrev S128x64 : Shape := ⟨2, ![128, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S100000x64, .f32⟩
  | .hbm, ⟨12, _⟩ => ⟨S1x64, .f32⟩
  | .hbm, ⟨13, _⟩ => ⟨S100000x64, .f32⟩
  | .hbm, ⟨14, _⟩ => ⟨S100000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .f32⟩
  | .hbm, ⟨25, _⟩ => ⟨S20000x64, .f32⟩
  | .hbm, ⟨26, _⟩ => ⟨S1000000x1, .i32⟩
  | .hbm, ⟨27, _⟩ => ⟨S20000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S1000000x128, .f32⟩
  | .hbm, ⟨47, _⟩ => ⟨S128x64, .f32⟩
  | .hbm, ⟨48, _⟩ => ⟨S1000000x64, .f32⟩
  | .hbm, ⟨49, _⟩ => ⟨S1x64, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  concatenates_S1000000x64_S1000000x64_S1000000x128_d1 : Shape.Concatenates [S1000000x64, S1000000x64] S1000000x128 1
  transposes_S64x128_S128x64_1_0 : S64x128.Transposes [1, 0] S128x64
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  gather_S20000x64_S1000000x1_S1000000x64_1_0_n_n_0_1_164_wf : GatherDims.WF S20000x64 S1000000x1 S1000000x64 [1] [0] [] [0] [] 1 ![1, 64]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«170187_j50233937494095_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.PayloadRows.lean ====
import proofs.«170187_j50233937494095_1_alg».proof.Proof.Gen.KernelIdeal.Skeleton
import proofs.«170187_j50233937494095_1_alg».proof.Proof.LibRowBlock

noncomputable section

open scoped BigOperators

/-! # The three kernel bodies on a block of rows

Each of the three kernels works on 5000 rows at a time and computes, for those rows, a dense layer: a product
with a matrix shared by all rows plus a bias row. Here each body's stored value, computed from a block of rows
of its row-wise operands, is shown to be the same block of rows of ONE whole-array expression written with the
host's operations: `linBias` (X·W + b), `mlp2` (A·Wa + B·Wb + b) and `mixLin` ((½·Xv + ½·X0)·W + b). -/

namespace Cert.KernelIdeal.RowValue

open Idealize.ShloMosaic Idealize.ShloMosaic.ValueIdx Idealize.ShloMosaic.Layout
open Cert.KernelIdeal Cert.KernelIdeal.Gen

/-- 100000 rows are 20 blocks of 5000. -/
theorem tilesA : Tiles S5000x64 S100000x64 0 20 := by decide
/-- 1000000 rows are 200 blocks of 5000. -/
theorem tilesB : Tiles S5000x64 S1000000x64 0 200 := by decide

theorem bcA : S1x64.BroadcastsInDim S100000x64 (![0, 1] : Fin 2 → Fin 2) := by decide
theorem bcB : S1x64.BroadcastsInDim S1000000x64 (![0, 1] : Fin 2 → Fin 2) := by decide

/-- A one-row array laid under every row: a block of rows sees the same row. -/
theorem bias_row_rows {α : Type} {R M T N : ℕ} (hN : Tiles ⟨2, ![R, N]⟩ ⟨2, ![M, N]⟩ 0 T) (t : Fin T)
    (hbt : (⟨2, ![1, N]⟩ : Shape).Broadcasts ⟨2, ![R, N]⟩)
    (h2 : (⟨2, ![1, N]⟩ : Shape).BroadcastsInDim ⟨2, ![M, N]⟩ (![0, 1] : Fin 2 → Fin 2))
    (b : (⟨2, ![1, N]⟩ : Shape).Idx → α) :
    broadcastTo ⟨2, ![R, N]⟩ b hbt
      = block ⟨2, ![R, N]⟩ ⟨2, ![M, N]⟩ 0 T t (broadcastInDim ⟨2, ![M, N]⟩ ![0, 1] h2 b) hN := by
  funext y
  obtain ⟨p, q, rfl⟩ : ∃ (p : Fin R) (q : Fin N), y = ix2 p q := ⟨y 0, y 1, eq_ix2 y⟩
  rw [broadcastTo_1b_ab_apply, block_apply]
  refine Eq.symm ?_
  refine broadcastInDim_apply ![0, 1] h2 b (hN.idx t (ix2 p q)) (ix2 (0 : Fin 1) q) fun a => ?_
  match a with
  | ⟨0, _⟩ => rfl
  | ⟨1, _⟩ =>
    show q.val = if N = 1 then 0 else q.val
    split
    · have := q.isLt; omega
    · rfl

/-! ## The first kernel: X·W + b -/

/-- Every row of `X` times the matrix `W`, plus the row `b`. -/
def linBias (X : FVec Ideal S100000x64 .f32) (W : FVec Ideal S64x64 .f32) (b : FVec Ideal S1x64 .f32) : FVec Ideal S100000x64 .f32 :=
  addf (Host.dotGeneral (DotDims.plain 100000 64 64) none X W) (broadcastInDim S100000x64 ![0, 1] bcA b)

/-- The first kernel's stored value on rows `5000·t …` of `X` is rows `5000·t …` of `linBias X W b`. -/
theorem pay0_rows (X : FVec Ideal S100000x64 .f32) (W : FVec Ideal S64x64 .f32) (b : FVec Ideal S1x64 .f32) (t : Fin 20) :
    k0_pay1 (F := Ideal) (block S5000x64 S100000x64 0 20 t X tilesA) W b
      = block S5000x64 S100000x64 0 20 t (linBias X W b) tilesA := by
  show addf (matmul dot_S5000x64_S64x64_S5000x64_1_0_0_1_n_n none
      (truncf .bf16 (block S5000x64 S100000x64 0 20 t X tilesA) bitsLt_bf16_f32)
      (truncf .bf16 (shapeCast S64x64 W shapeCasts_S64x64_S64x64) bitsLt_bf16_f32) (constant S5000x64 .f32 0x00000000#32))
    (broadcastTo S5000x64 (shapeCast S1x64 b shapeCasts_S1x64_S1x64) broadcasts_S1x64_S5000x64) = _
  rw [shapeCast_self, shapeCast_self]
  exact congrArg₂ addf
    (Cert.RowBlock.dot_rows_trunc bitsLt_bf16_f32 bitsLt_bf16_f32 dot_S5000x64_S64x64_S5000x64_1_0_0_1_n_n rfl
      (DotDims.plain 100000 64 64) rfl tilesA tilesA none none t X W)
    (bias_row_rows tilesA t broadcasts_S1x64_S5000x64 bcA b)

/-! ## The second kernel: A·Wa + B·Wb + b -/

/-- Every row of `A` times `Wa` plus the same row of `B` times `Wb`, plus the row `b`. -/
def mlp2 (A B : FVec Ideal S1000000x64 .f32) (Wa Wb : FVec Ideal S64x64 .f32) (b : FVec Ideal S1x64 .f32) : FVec Ideal S1000000x64 .f32 :=
  addf (addf (Host.dotGeneral (DotDims.plain 1000000 64 64) none A Wa) (Host.dotGeneral (DotDims.plain 1000000 64 64) none B Wb))
    (broadcastInDim S1000000x64 ![0, 1] bcB b)

/-- The second kernel's stored value on rows `5000·t …` of `A` and `B` is rows `5000·t …` of `mlp2 A B Wa Wb b`. -/
theorem pay1_rows (A B : FVec Ideal S1000000x64 .f32) (Wa Wb : FVec Ideal S64x64 .f32) (b : FVec Ideal S1x64 .f32) (t : Fin 200) :
    k1_pay1 (F := Ideal) (block S5000x64 S1000000x64 0 200 t A tilesB) (block S5000x64 S1000000x64 0 200 t B tilesB) Wa Wb b
      = block S5000x64 S1000000x64 0 200 t (mlp2 A B Wa Wb b) tilesB := by
  show addf (addf
      (matmul dot_S5000x64_S64x64_S5000x64_1_0_0_1_n_n none
        (truncf .bf16 (shapeCast S5000x64 (block S5000x64 S1000000x64 0 200 t A tilesB) shapeCasts_S5000x64_S5000x64) bitsLt_bf16_f32)
        (truncf .bf16 (shapeCast S64x64 Wa shapeCasts_S64x64_S64x64) bitsLt_bf16_f32) (constant S5000x64 .f32 0x00000000#32))
      (matmul dot_S5000x64_S64x64_S5000x64_1_0_0_1_n_n none
        (truncf .bf16 (shapeCast S5000x64 (block S5000x64 S1000000x64 0 200 t B tilesB) shapeCasts_S5000x64_S5000x64) bitsLt_bf16_f32)
        (truncf .bf16 (shapeCast S64x64 Wb shapeCasts_S64x64_S64x64) bitsLt_bf16_f32) (constant S5000x64 .f32 0x00000000#32)))
    (broadcastTo S5000x64 (shapeCast S1x64 b shapeCasts_S1x64_S1x64) broadcasts_S1x64_S5000x64) = _
  rw [shapeCast_self, shapeCast_self, shapeCast_self, shapeCast_self, shapeCast_self]
  exact congrArg₂ addf
    (congrArg₂ addf
      (Cert.RowBlock.dot_rows_trunc bitsLt_bf16_f32 bitsLt_bf16_f32 dot_S5000x64_S64x64_S5000x64_1_0_0_1_n_n rfl
        (DotDims.plain 1000000 64 64) rfl tilesB tilesB none none t A Wa)
      (Cert.RowBlock.dot_rows_trunc bitsLt_bf16_f32 bitsLt_bf16_f32 dot_S5000x64_S64x64_S5000x64_1_0_0_1_n_n rfl
        (DotDims.plain 1000000 64 64) rfl tilesB tilesB none none t B Wb))
    (bias_row_rows tilesB t broadcasts_S1x64_S5000x64 bcB b)

/-! ## The third kernel: (½·Xv + ½·X0)·W + b -/

/-- The constant one half in every entry. -/
def half : FVec Ideal S100000x64 .f32 :=
  broadcastInDim S100000x64 ![] bcast_S_S100000x64 (constant (F := Ideal) S_ .f32 0x3F000000#32)

/-- The even mix of `Xv` and `X0`, every row times `W`, plus the row `b`. -/
def mixLin (Xv X0 : FVec Ideal S100000x64 .f32) (W : FVec Ideal S64x64 .f32) (b : FVec Ideal S1x64 .f32) : FVec Ideal S100000x64 .f32 :=
  addf (Host.dotGeneral (DotDims.plain 100000 64 64) none (addf (mulf half Xv) (mulf half X0)) W)
    (broadcastInDim S100000x64 ![0, 1] bcA b)

/-- The third kernel's stored value on rows `5000·t …` of `Xv` and `X0` is rows `5000·t …` of `mixLin Xv X0 W b`. -/
theorem pay2_rows (Xv X0 : FVec Ideal S100000x64 .f32) (W : FVec Ideal S64x64 .f32) (b : FVec Ideal S1x64 .f32) (t : Fin 20) :
    k2_pay1 (F := Ideal) (block S5000x64 S100000x64 0 20 t Xv tilesA) (block S5000x64 S100000x64 0 20 t X0 tilesA) W b
      = block S5000x64 S100000x64 0 20 t (mixLin Xv X0 W b) tilesA := by
  show addf (matmul dot_S5000x64_S64x64_S5000x64_1_0_0_1_n_n none
      (truncf .bf16 (addf
        (mulf (broadcast S5000x64 (Scalar.ofBits (F := Ideal) .f32 0x3F000000#32))
          (shapeCast S5000x64 (block S5000x64 S100000x64 0 20 t Xv tilesA) shapeCasts_S5000x64_S5000x64))
        (mulf (broadcast S5000x64 (Scalar.ofBits (F := Ideal) .f32 0x3F000000#32)) (block S5000x64 S100000x64 0 20 t X0 tilesA))) bitsLt_bf16_f32)
      (truncf .bf16 (shapeCast S64x64 W shapeCasts_S64x64_S64x64) bitsLt_bf16_f32) (constant S5000x64 .f32 0x00000000#32))
    (broadcastTo S5000x64 (shapeCast S1x64 b shapeCasts_S1x64_S1x64) broadcasts_S1x64_S5000x64) = _
  rw [shapeCast_self, shapeCast_self, shapeCast_self, Cert.RowBlock.splat_rows tilesA t bcast_S_S100000x64 0x3F000000#32]
  exact congrArg₂ addf
    (Cert.RowBlock.dot_rows_trunc bitsLt_bf16_f32 bitsLt_bf16_f32 dot_S5000x64_S64x64_S5000x64_1_0_0_1_n_n rfl
      (DotDims.plain 100000 64 64) rfl tilesA tilesA none none t (addf (mulf half Xv) (mulf half X0)) W)
    (bias_row_rows tilesA t broadcasts_S1x64_S5000x64 bcA b)

end Cert.KernelIdeal.RowValue

end
-- ==== Proof.RegionValues.lean ====
import proofs.«170187_j50233937494095_1_alg».proof.Proof.Gen.KernelIdeal.Frame
import proofs.«170187_j50233937494095_1_alg».proof.Proof.PayloadRows

set_option maxRecDepth 16384

noncomputable section

/-! # What each kernel region leaves in its output array

Each region runs its body once per block of 5000 rows and writes the result block back. The body's stored value on
block `t` of the row-wise operands is block `t` of one whole-array expression (`linBias`, `mlp2`, `mixLin`), the
blocks cover the output array, so after the region the output array holds that expression of the arrays the
region found at its entry. -/

namespace Cert.KernelIdeal.RegionValue

open Idealize.ShloMosaic Idealize.ShloMosaic.TcCoe Idealize.ShloMosaic.Layout
open Idealize.SL.Sem
open Idealize.ShloMosaic.Pipeline (Dat)
open Cert.KernelIdeal Cert.KernelIdeal.Gen Cert.KernelIdeal.RowValue

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The block indices of region 0's windows at point `t`: the row-wise windows are at block `t`, the others at their one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `5000·t …` of its array. -/
theorem iblk0_0 (c : Dev nD) (t : Fin cfg0.N) :
    iblk0 V c 0 t = block S5000x64 S100000x64 0 20 (Fin.cast N_0 t) (V c main_arg0) tilesA := by
  funext y
  show V c main_arg0 (((cfg0.win 0).blk t).view.emb y) = V c main_arg0 (tilesA.idx (Fin.cast N_0 t) y)
  refine congrArg (V c main_arg0) (funext fun a => Fin.ext ?_)
  obtain ⟨e0, e1, -⟩ := idx0 t
  match a with
  | ⟨0, _⟩ => show win0_0.index t (0 : Fin 2) * 5000 + 1 * (y 0).val = t.val * 5000 + (y 0).val; omega
  | ⟨1, _⟩ => show win0_0.index t (1 : Fin 2) * 64 + 1 * (y 1).val = (y 1).val; omega

/-- Window 1's block is its whole array. -/
theorem iblk0_1 (c : Dev nD) (t : Fin cfg0.N) : iblk0 V c 1 t = V c main_v0 := by
  funext y
  show V c main_v0 (((cfg0.win 1).blk t).view.emb y) = V c main_v0 y
  refine congrArg (V c main_v0) (funext fun a => Fin.ext ?_)
  obtain ⟨-, -, e2, e3, -⟩ := idx0 t
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- Window 2's block is its whole array. -/
theorem iblk0_2 (c : Dev nD) (t : Fin cfg0.N) : iblk0 V c 2 t = V c main_v1 := by
  funext y
  show V c main_v1 (((cfg0.win 2).blk t).view.emb y) = V c main_v1 y
  refine congrArg (V c main_v1) (funext fun a => Fin.ext ?_)
  obtain ⟨-, -, -, -, e4, e5, -⟩ := idx0 t
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point `t` writes back is block `t` of `linBias` of the arrays the region found. -/
theorem flushed0 (c : Dev nD) (t : Fin cfg0.N) :
    (dat0 V c).flushed 3 t = ((cfg0.win 3).blk t).view.read (Elt Ideal) (linBias (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  rw [iblk0_0, iblk0_1, iblk0_2, pay0_rows]
  funext y
  show linBias (V c main_arg0) (V c main_v0) (V c main_v1) (tilesA.idx (Fin.cast N_0 t) y)
    = linBias (V c main_arg0) (V c main_v0) (V c main_v1) (((cfg0.win 3).blk t).view.emb y)
  refine congrArg _ (funext fun a => Fin.ext ?_)
  obtain ⟨-, -, -, -, -, -, e6, e7⟩ := idx0 t
  match a with
  | ⟨0, _⟩ => show t.val * 5000 + (y 0).val = win0_3.index t (0 : Fin 2) * 5000 + 1 * (y 0).val; omega
  | ⟨1, _⟩ => show (y 1).val = win0_3.index t (1 : Fin 2) * 64 + 1 * (y 1).val; omega

/-- An index is in point `t`'s output block iff each coordinate is in the block's range. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v2).slice (win0_3.rect t)).set ↔ _
  rw [View.set_slice_whole, Rect.mem_set_unit]
  exact Iff.rfl

/-- Row `r` is in the block of point `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by rw [show cfg0.N = 20 from N_0]; omega
  refine ⟨⟨(i 0).val / 5000, ht⟩, flush0_3 _, ?_⟩
  rw [mem_blk0]
  obtain ⟨-, -, -, -, -, -, e6, e7⟩ := idx0 ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e7]; omega

/-- After region 0 its output array holds `linBias` of the arrays it found. -/
theorem arr0 (c : Dev nD) : (dat0 V c).arrAt 3 cfg0.N = linBias (V c main_arg0) (V c main_v0) (V c main_v1) :=
  (dat0 V c).arrAt_eq_of_cover 3 _ (fun t _ => flushed0 V c t) (cover0)

/-! ## Region 1 -/

/-- The block indices of region 1's windows at point `t`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `5000·t …` of its array. -/
theorem iblk1_0 (c : Dev nD) (t : Fin cfg1.N) :
    iblk1 V c 0 t = block S5000x64 S1000000x64 0 200 (Fin.cast N_1 t) (V c main_v26) tilesB := by
  funext y
  show V c main_v26 (((cfg1.win 0).blk t).view.emb y) = V c main_v26 (tilesB.idx (Fin.cast N_1 t) y)
  refine congrArg (V c main_v26) (funext fun a => Fin.ext ?_)
  obtain ⟨e0, e1, -⟩ := idx1 t
  match a with
  | ⟨0, _⟩ => show win1_0.index t (0 : Fin 2) * 5000 + 1 * (y 0).val = t.val * 5000 + (y 0).val; omega
  | ⟨1, _⟩ => show win1_0.index t (1 : Fin 2) * 64 + 1 * (y 1).val = (y 1).val; omega

/-- Window 1's block at point `t` is rows `5000·t …` of its array. -/
theorem iblk1_1 (c : Dev nD) (t : Fin cfg1.N) :
    iblk1 V c 1 t = block S5000x64 S1000000x64 0 200 (Fin.cast N_1 t) (V c main_v19) tilesB := by
  funext y
  show V c main_v19 (((cfg1.win 1).blk t).view.emb y) = V c main_v19 (tilesB.idx (Fin.cast N_1 t) y)
  refine congrArg (V c main_v19) (funext fun a => Fin.ext ?_)
  obtain ⟨-, -, e2, e3, -⟩ := idx1 t
  match a with
  | ⟨0, _⟩ => show win1_1.index t (0 : Fin 2) * 5000 + 1 * (y 0).val = t.val * 5000 + (y 0).val; omega
  | ⟨1, _⟩ => show win1_1.index t (1 : Fin 2) * 64 + 1 * (y 1).val = (y 1).val; omega

/-- Window 2's block is its whole array. -/
theorem iblk1_2 (c : Dev nD) (t : Fin cfg1.N) : iblk1 V c 2 t = V c main_v28 := by
  funext y
  show V c main_v28 (((cfg1.win 2).blk t).view.emb y) = V c main_v28 y
  refine congrArg (V c main_v28) (funext fun a => Fin.ext ?_)
  obtain ⟨-, -, -, -, e4, e5, -⟩ := idx1 t
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's block is its whole array. -/
theorem iblk1_3 (c : Dev nD) (t : Fin cfg1.N) : iblk1 V c 3 t = V c main_v30 := by
  funext y
  show V c main_v30 (((cfg1.win 3).blk t).view.emb y) = V c main_v30 y
  refine congrArg (V c main_v30) (funext fun a => Fin.ext ?_)
  obtain ⟨-, -, -, -, -, -, e6, e7, -⟩ := idx1 t
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block is its whole array. -/
theorem iblk1_4 (c : Dev nD) (t : Fin cfg1.N) : iblk1 V c 4 t = V c main_v31 := by
  funext y
  show V c main_v31 (((cfg1.win 4).blk t).view.emb y) = V c main_v31 y
  refine congrArg (V c main_v31) (funext fun a => Fin.ext ?_)
  obtain ⟨-, -, -, -, -, -, -, -, e8, e9, -⟩ := idx1 t
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point `t` writes back is block `t` of `mlp2` of the arrays the region found. -/
theorem flushed1 (c : Dev nD) (t : Fin cfg1.N) :
    (dat1 V c).flushed 5 t = ((cfg1.win 5).blk t).view.read (Elt Ideal)
      (mlp2 (V c main_v26) (V c main_v19) (V c main_v28) (V c main_v30) (V c main_v31)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  rw [iblk1_0, iblk1_1, iblk1_2, iblk1_3, iblk1_4, pay1_rows]
  funext y
  show mlp2 (V c main_v26) (V c main_v19) (V c main_v28) (V c main_v30) (V c main_v31) (tilesB.idx (Fin.cast N_1 t) y)
    = mlp2 (V c main_v26) (V c main_v19) (V c main_v28) (V c main_v30) (V c main_v31) (((cfg1.win 5).blk t).view.emb y)
  refine congrArg _ (funext fun a => Fin.ext ?_)
  obtain ⟨-, -, -, -, -, -, -, -, -, -, e10, e11⟩ := idx1 t
  match a with
  | ⟨0, _⟩ => show t.val * 5000 + (y 0).val = win1_5.index t (0 : Fin 2) * 5000 + 1 * (y 0).val; omega
  | ⟨1, _⟩ => show (y 1).val = win1_5.index t (1 : Fin 2) * 64 + 1 * (y 1).val; omega

/-- An index is in point `t`'s output block iff each coordinate is in the block's range. -/
theorem mem_blk1 (t : Fin cfg1.N) (i : S1000000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v32).slice (win1_5.rect t)).set ↔ _
  rw [View.set_slice_whole, Rect.mem_set_unit]
  exact Iff.rfl

/-- Row `r` is in the block of point `r / 5000`. -/
theorem cover1 (i : S1000000x64.Idx) : ∃ t : Fin cfg1.N, (cfg1.win 5).flush t = true ∧ i ∈ ((cfg1.win 5).blk t).view.set := by
  have hi0 : (i 0).val < 1000000 := (i 0).isLt
  have hi1 : (i 1).val < 64 := (i 1).isLt
  have ht : (i 0).val / 5000 < cfg1.N := by rw [show cfg1.N = 200 from N_1]; omega
  refine ⟨⟨(i 0).val / 5000, ht⟩, flush1_5 _, ?_⟩
  rw [mem_blk1]
  obtain ⟨-, -, -, -, -, -, -, -, -, -, e10, e11⟩ := idx1 ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e11]; omega

/-- After region 1 its output array holds `mlp2` of the arrays it found. -/
theorem arr1 (c : Dev nD) : (dat1 V c).arrAt 5 cfg1.N
    = mlp2 (V c main_v26) (V c main_v19) (V c main_v28) (V c main_v30) (V c main_v31) :=
  (dat1 V c).arrAt_eq_of_cover 5 _ (fun t _ => flushed1 V c t) (cover1)

/-! ## Region 2 -/

/-- The block indices of region 2's windows at point `t`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `5000·t …` of its array. -/
theorem iblk2_0 (c : Dev nD) (t : Fin cfg2.N) :
    iblk2 V c 0 t = block S5000x64 S100000x64 0 20 (Fin.cast N_2 t) (V c main_v35) tilesA := by
  funext y
  show V c main_v35 (((cfg2.win 0).blk t).view.emb y) = V c main_v35 (tilesA.idx (Fin.cast N_2 t) y)
  refine congrArg (V c main_v35) (funext fun a => Fin.ext ?_)
  obtain ⟨e0, e1, -⟩ := idx2 t
  match a with
  | ⟨0, _⟩ => show win2_0.index t (0 : Fin 2) * 5000 + 1 * (y 0).val = t.val * 5000 + (y 0).val; omega
  | ⟨1, _⟩ => show win2_0.index t (1 : Fin 2) * 64 + 1 * (y 1).val = (y 1).val; omega

/-- Window 1's block at point `t` is rows `5000·t …` of its array. -/
theorem iblk2_1 (c : Dev nD) (t : Fin cfg2.N) :
    iblk2 V c 1 t = block S5000x64 S100000x64 0 20 (Fin.cast N_2 t) (V c main_arg1) tilesA := by
  funext y
  show V c main_arg1 (((cfg2.win 1).blk t).view.emb y) = V c main_arg1 (tilesA.idx (Fin.cast N_2 t) y)
  refine congrArg (V c main_arg1) (funext fun a => Fin.ext ?_)
  obtain ⟨-, -, e2, e3, -⟩ := idx2 t
  match a with
  | ⟨0, _⟩ => show win2_1.index t (0 : Fin 2) * 5000 + 1 * (y 0).val = t.val * 5000 + (y 0).val; omega
  | ⟨1, _⟩ => show win2_1.index t (1 : Fin 2) * 64 + 1 * (y 1).val = (y 1).val; omega

/-- Window 2's block is its whole array. -/
theorem iblk2_2 (c : Dev nD) (t : Fin cfg2.N) : iblk2 V c 2 t = V c main_v36 := by
  funext y
  show V c main_v36 (((cfg2.win 2).blk t).view.emb y) = V c main_v36 y
  refine congrArg (V c main_v36) (funext fun a => Fin.ext ?_)
  obtain ⟨-, -, -, -, e4, e5, -⟩ := idx2 t
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's block is its whole array. -/
theorem iblk2_3 (c : Dev nD) (t : Fin cfg2.N) : iblk2 V c 3 t = V c main_v37 := by
  funext y
  show V c main_v37 (((cfg2.win 3).blk t).view.emb y) = V c main_v37 y
  refine congrArg (V c main_v37) (funext fun a => Fin.ext ?_)
  obtain ⟨-, -, -, -, -, -, e6, e7, -⟩ := idx2 t
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- What point `t` writes back is block `t` of `mixLin` of the arrays the region found. -/
theorem flushed2 (c : Dev nD) (t : Fin cfg2.N) :
    (dat2 V c).flushed 4 t = ((cfg2.win 4).blk t).view.read (Elt Ideal)
      (mixLin (V c main_v35) (V c main_arg1) (V c main_v36) (V c main_v37)) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x64) hz, View.ld_unit_zero (S := S1x64) hz]
  rw [iblk2_0, iblk2_1, iblk2_2, iblk2_3, pay2_rows]
  funext y
  show mixLin (V c main_v35) (V c main_arg1) (V c main_v36) (V c main_v37) (tilesA.idx (Fin.cast N_2 t) y)
    = mixLin (V c main_v35) (V c main_arg1) (V c main_v36) (V c main_v37) (((cfg2.win 4).blk t).view.emb y)
  refine congrArg _ (funext fun a => Fin.ext ?_)
  obtain ⟨-, -, -, -, -, -, -, -, e8, e9⟩ := idx2 t
  match a with
  | ⟨0, _⟩ => show t.val * 5000 + (y 0).val = win2_4.index t (0 : Fin 2) * 5000 + 1 * (y 0).val; omega
  | ⟨1, _⟩ => show (y 1).val = win2_4.index t (1 : Fin 2) * 64 + 1 * (y 1).val; omega

/-- An index is in point `t`'s output block iff each coordinate is in the block's range. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v38).slice (win2_4.rect t)).set ↔ _
  rw [View.set_slice_whole, Rect.mem_set_unit]
  exact Iff.rfl

/-- Row `r` is in the block of point `r / 5000`. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have ht : (i 0).val / 5000 < cfg2.N := by rw [show cfg2.N = 20 from N_2]; omega
  refine ⟨⟨(i 0).val / 5000, ht⟩, flush2_4 _, ?_⟩
  rw [mem_blk2]
  obtain ⟨-, -, -, -, -, -, -, -, e8, e9⟩ := idx2 ⟨(i 0).val / 5000, ht⟩
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val ∧ (i 1).val < win2_4.index ⟨(i 0).val / 5000, ht⟩ (1 : Fin 2) * 64 + 64
    rw [e9]; omega

/-- After region 2 its output array holds `mixLin` of the arrays it found. -/
theorem arr2 (c : Dev nD) : (dat2 V c).arrAt 4 cfg2.N
    = mixLin (V c main_v35) (V c main_arg1) (V c main_v36) (V c main_v37) :=
  (dat2 V c).arrAt_eq_of_cover 4 _ (fun t _ => flushed2 V c t) (cover2)

end Cert.KernelIdeal.RegionValue

end
-- ==== Proof.Stages.lean ====
import proofs.«170187_j50233937494095_1_alg».proof.Proof.PayloadRows

noncomputable section

/-! # The kernel program's values, stage by stage

The program alternates dense layers (the three kernel regions) with gathers and scatter-adds on the host. Each
stage is written here as a function of the ten argument arrays: the first layer's output `kLin1`, the incidence
gathers through the wrapped vertex and edge indices, the hyperedge sums `kXe`, the second layer `kXev` on the
gathered rows, the vertex sums `kXv`, and the mixed last layer `kOut`. -/

namespace Cert.KernelIdeal.Stage

open Idealize.ShloMosaic
open Cert.KernelIdeal Cert.KernelIdeal.Gen Cert.KernelIdeal.RowValue

variable (a0 a1 : (⟨S100000x64, .f32⟩ : BufTy).Contents (Elt Ideal))
  (a2 a3 : (⟨S1000000, .i32⟩ : BufTy).Contents (Elt Ideal))
  (a4 : (⟨S64x64, .f32⟩ : BufTy).Contents (Elt Ideal)) (a5 : (⟨S64, .f32⟩ : BufTy).Contents (Elt Ideal))
  (a6 : (⟨S64x128, .f32⟩ : BufTy).Contents (Elt Ideal)) (a7 : (⟨S64, .f32⟩ : BufTy).Contents (Elt Ideal))
  (a8 : (⟨S64x64, .f32⟩ : BufTy).Contents (Elt Ideal)) (a9 : (⟨S64, .f32⟩ : BufTy).Contents (Elt Ideal))

/-- The first layer: `X · W1ᵀ + b1`. -/
def kLin1 : (⟨S100000x64, .f32⟩ : BufTy).Contents (Elt Ideal) :=
  linBias a0 (transpose S64x64 [1, 0] a4 transposes_S64x64_S64x64_1_0) (shapeCast S1x64 a5 shapeCasts_S64_S1x64)

/-- The vertex indices, a negative one wrapped by the number of vertices, as a column. -/
def kIdxV : (⟨S1000000x1, .i32⟩ : BufTy).Contents (Elt Ideal) :=
  broadcastInDim S1000000x1 ![0] bcast_S1000000_S1000000x1_0
    (select (cmpi .slt a2 (broadcastInDim S1000000 ![] bcast_S_S1000000 (constantI S_ 32 0#32)))
      (addi a2 (broadcastInDim S1000000 ![] bcast_S_S1000000 (constantI S_ 32 100000#32))) a2)

/-- The hyperedge indices, a negative one wrapped by the number of hyperedges, as a column. -/
def kIdxE : (⟨S1000000x1, .i32⟩ : BufTy).Contents (Elt Ideal) :=
  broadcastInDim S1000000x1 ![0] bcast_S1000000_S1000000x1_0
    (select (cmpi .slt a3 (broadcastInDim S1000000 ![] bcast_S_S1000000 (constantI S_ 32 0#32)))
      (addi a3 (broadcastInDim S1000000 ![] bcast_S_S1000000 (constantI S_ 32 20000#32))) a3)

/-- The hyperedge sums: the first layer's rows gathered by vertex and added up by hyperedge. -/
def kXe : (⟨S20000x64, .f32⟩ : BufTy).Contents (Elt Ideal) :=
  Host.scatterAdd (F := Ideal) scatter_S20000x64_S1000000x1_S1000000x64_1_0_0_1
    (broadcastInDim S20000x64 ![] bcast_S_S20000x64 (constant (F := Ideal) S_ .f32 0x00000000#32))
    (broadcastInDim S1000000x1 ![0] bcast_S1000000_S1000000x1_0 a3)
    (Host.gather gather_S100000x64_S1000000x1_S1000000x64_1_0_n_n_0_1_164 (kLin1 a0 a4 a5) (kIdxV a2))

/-- The second layer on each incidence: the vertex's row times the left half of `W2`, the hyperedge's sum times
    the right half, plus `b2`. -/
def kXev : (⟨S1000000x64, .f32⟩ : BufTy).Contents (Elt Ideal) :=
  mlp2 (Host.gather gather_S100000x64_S1000000x1_S1000000x64_1_0_n_n_0_1_164 a0 (kIdxV a2))
    (Host.gather gather_S20000x64_S1000000x1_S1000000x64_1_0_n_n_0_1_164 (kXe a0 a2 a3 a4 a5) (kIdxE a3))
    (transpose S64x64 [1, 0] (extractStridedSlice S64x64 ![0, 0] a6 slices_S64x128_S64x64_0_0) transposes_S64x64_S64x64_1_0)
    (transpose S64x64 [1, 0] (extractStridedSlice S64x64 ![0, 64] a6 slices_S64x128_S64x64_0_64) transposes_S64x64_S64x64_1_0)
    (shapeCast S1x64 a7 shapeCasts_S64_S1x64)

/-- The vertex sums: the second layer's rows added up by vertex. -/
def kXv : (⟨S100000x64, .f32⟩ : BufTy).Contents (Elt Ideal) :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 a2)
    (kXev a0 a2 a3 a4 a5 a6 a7)

/-- The last layer: the even mix of the vertex sums and `X0`, times `Wᵀ`, plus `b`. -/
def kOut : (⟨S100000x64, .f32⟩ : BufTy).Contents (Elt Ideal) :=
  mixLin (kXv a0 a2 a3 a4 a5 a6 a7) a1 (transpose S64x64 [1, 0] a8 transposes_S64x64_S64x64_1_0)
    (shapeCast S1x64 a9 shapeCasts_S64_S1x64)

end Cert.KernelIdeal.Stage

end
-- ==== Proof.Fold.lean ====
import proofs.«170187_j50233937494095_1_alg».proof.Proof.Gen.KernelIdeal.Frame
import proofs.«170187_j50233937494095_1_alg».proof.Proof.RegionValues
import proofs.«170187_j50233937494095_1_alg».proof.Proof.Stages

set_option maxRecDepth 16384

noncomputable section

/-! # The buffers at each boundary of the kernel program, as functions of the arguments

The program's buffer contents are followed from the launch through host stretch, region, host stretch, region,
host stretch, region. At each boundary the buffers the next item reads are named by the stage functions of the
argument arrays: a host stretch applies its operations to the contents before it, a region leaves its output
array at its dense layer of the arrays it found, and every buffer an item does not write keeps its contents. -/

namespace Cert.KernelIdeal.Fold

open Idealize.ShloMosaic Idealize.ShloMosaic.TcCoe Idealize.ShloMosaic.StableHlo
open Idealize.SL.Sem
open Idealize.ShloMosaic.Pipeline (Dat)
open Cert.KernelIdeal Cert.KernelIdeal.Gen Cert.KernelIdeal.RowValue Cert.KernelIdeal.RegionValue Cert.KernelIdeal.Stage

variable (m : (ℓ : Loc nD τ sig) → Buf (Elt Ideal) ℓ) (ρ : Dev nD → PrngReg) (c : Dev nD)

/-! ## After the first host stretch (region 0's entry) -/

theorem w1_v0 : W1 m ρ c (Proc.devRef .tc main_v0)
    = transpose S64x64 [1, 0] (m ((c : Thread nD τ).loc main_arg4)) transposes_S64x64_S64x64_1_0 := by
  show StableHlo.after hostOps0 (W0 m ρ c) (Proc.devRef .tc main_v0) = _
  after_results <;> rfl
theorem w1_v1 : W1 m ρ c (Proc.devRef .tc main_v1) = shapeCast S1x64 (m ((c : Thread nD τ).loc main_arg5)) shapeCasts_S64_S1x64 := by
  show StableHlo.after hostOps0 (W0 m ρ c) (Proc.devRef .tc main_v1) = _
  after_results <;> rfl
theorem w1_arg0 : W1 m ρ c (Proc.devRef .tc main_arg0) = m ((c : Thread nD τ).loc main_arg0) := by
  show StableHlo.after hostOps0 (W0 m ρ c) (Proc.devRef .tc main_arg0) = _
  after_results <;> rfl
theorem w1_arg1 : W1 m ρ c (Proc.devRef .tc main_arg1) = m ((c : Thread nD τ).loc main_arg1) := by
  show StableHlo.after hostOps0 (W0 m ρ c) (Proc.devRef .tc main_arg1) = _
  after_results <;> rfl
theorem w1_arg2 : W1 m ρ c (Proc.devRef .tc main_arg2) = m ((c : Thread nD τ).loc main_arg2) := by
  show StableHlo.after hostOps0 (W0 m ρ c) (Proc.devRef .tc main_arg2) = _
  after_results <;> rfl
theorem w1_arg3 : W1 m ρ c (Proc.devRef .tc main_arg3) = m ((c : Thread nD τ).loc main_arg3) := by
  show StableHlo.after hostOps0 (W0 m ρ c) (Proc.devRef .tc main_arg3) = _
  after_results <;> rfl
theorem w1_arg6 : W1 m ρ c (Proc.devRef .tc main_arg6) = m ((c : Thread nD τ).loc main_arg6) := by
  show StableHlo.after hostOps0 (W0 m ρ c) (Proc.devRef .tc main_arg6) = _
  after_results <;> rfl
theorem w1_arg7 : W1 m ρ c (Proc.devRef .tc main_arg7) = m ((c : Thread nD τ).loc main_arg7) := by
  show StableHlo.after hostOps0 (W0 m ρ c) (Proc.devRef .tc main_arg7) = _
  after_results <;> rfl
theorem w1_arg8 : W1 m ρ c (Proc.devRef .tc main_arg8) = m ((c : Thread nD τ).loc main_arg8) := by
  show StableHlo.after hostOps0 (W0 m ρ c) (Proc.devRef .tc main_arg8) = _
  after_results <;> rfl
theorem w1_arg9 : W1 m ρ c (Proc.devRef .tc main_arg9) = m ((c : Thread nD τ).loc main_arg9) := by
  show StableHlo.after hostOps0 (W0 m ρ c) (Proc.devRef .tc main_arg9) = _
  after_results <;> rfl

theorem v1_arg0 : V1 m ρ c main_arg0 = (m ((c : Thread nD τ).loc main_arg0)) := w1_arg0 m ρ c
theorem v1_v0 : V1 m ρ c main_v0 = transpose S64x64 [1, 0] (m ((c : Thread nD τ).loc main_arg4)) transposes_S64x64_S64x64_1_0 := w1_v0 m ρ c
theorem v1_v1 : V1 m ρ c main_v1 = shapeCast S1x64 (m ((c : Thread nD τ).loc main_arg5)) shapeCasts_S64_S1x64 := w1_v1 m ρ c

/-! ## After region 0 -/

/-- Region 0's output is the first layer. -/
theorem w2_v2 : W2 m ρ c (Proc.devRef .tc main_v2) = kLin1 (m ((c : Thread nD τ).loc main_arg0)) (m ((c : Thread nD τ).loc main_arg4)) (m ((c : Thread nD τ).loc main_arg5)) := by
  refine ((W2_arr m ρ c 3).trans (arr0 (V1 m ρ) c)).trans ?_
  rw [v1_arg0, v1_v0, v1_v1]
  rfl
theorem w2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (w1_arg0 m ρ c)
theorem w2_arg1 : W2 m ρ c (Proc.devRef .tc main_arg1) = m ((c : Thread nD τ).loc main_arg1) :=
  (W2_of_ne m ρ c main_arg1 (by decide)).trans (w1_arg1 m ρ c)
theorem w2_arg2 : W2 m ρ c (Proc.devRef .tc main_arg2) = m ((c : Thread nD τ).loc main_arg2) :=
  (W2_of_ne m ρ c main_arg2 (by decide)).trans (w1_arg2 m ρ c)
theorem w2_arg3 : W2 m ρ c (Proc.devRef .tc main_arg3) = m ((c : Thread nD τ).loc main_arg3) :=
  (W2_of_ne m ρ c main_arg3 (by decide)).trans (w1_arg3 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)
theorem w2_arg8 : W2 m ρ c (Proc.devRef .tc main_arg8) = m ((c : Thread nD τ).loc main_arg8) :=
  (W2_of_ne m ρ c main_arg8 (by decide)).trans (w1_arg8 m ρ c)
theorem w2_arg9 : W2 m ρ c (Proc.devRef .tc main_arg9) = m ((c : Thread nD τ).loc main_arg9) :=
  (W2_of_ne m ρ c main_arg9 (by decide)).trans (w1_arg9 m ρ c)

/-! ## After the second host stretch (region 1's entry) -/

/-- The vertices' rows, gathered. -/
theorem v3_v26 : V3 m ρ c main_v26
    = Host.gather gather_S100000x64_S1000000x1_S1000000x64_1_0_n_n_0_1_164 (m ((c : Thread nD τ).loc main_arg0)) (kIdxV (m ((c : Thread nD τ).loc main_arg2))) := by
  show StableHlo.after hostOps1 (W2 m ρ c) (Proc.devRef .tc main_v26) = _
  after_results_simp
  rw [w2_arg0, w2_arg2]
  rfl
/-- The hyperedge sums. -/
theorem w3_v12 : W3 m ρ c (Proc.devRef .tc main_v12) = kXe (m ((c : Thread nD τ).loc main_arg0)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v12) = _
  after_results_simp
  rw [w2_v2, w2_arg2, w2_arg3]
  rfl
/-- The hyperedges' sums, gathered. -/
theorem v3_v19 : V3 m ρ c main_v19
    = Host.gather gather_S20000x64_S1000000x1_S1000000x64_1_0_n_n_0_1_164 (kXe (m ((c : Thread nD τ).loc main_arg0)) (m ((c : Thread nD τ).loc main_arg2)) (m ((c : Thread nD τ).loc main_arg3)) (m ((c : Thread nD τ).loc main_arg4)) (m ((c : Thread nD τ).loc main_arg5))) (kIdxE (m ((c : Thread nD τ).loc main_arg3))) := by
  show StableHlo.after hostOps1 (W2 m ρ c) (Proc.devRef .tc main_v19) = _
  after_results_simp
  rw [w2_v2, w2_arg2, w2_arg3]
  rfl
theorem v3_v28 : V3 m ρ c main_v28
    = transpose S64x64 [1, 0] (extractStridedSlice S64x64 ![0, 0] (m ((c : Thread nD τ).loc main_arg6)) slices_S64x128_S64x64_0_0) transposes_S64x64_S64x64_1_0 := by
  show StableHlo.after hostOps1 (W2 m ρ c) (Proc.devRef .tc main_v28) = _
  after_results_simp
  rw [w2_arg6]
theorem v3_v30 : V3 m ρ c main_v30
    = transpose S64x64 [1, 0] (extractStridedSlice S64x64 ![0, 64] (m ((c : Thread nD τ).loc main_arg6)) slices_S64x128_S64x64_0_64) transposes_S64x64_S64x64_1_0 := by
  show StableHlo.after hostOps1 (W2 m ρ c) (Proc.devRef .tc main_v30) = _
  after_results_simp
  rw [w2_arg6]
theorem v3_v31 : V3 m ρ c main_v31 = shapeCast S1x64 (m ((c : Thread nD τ).loc main_arg7)) shapeCasts_S64_S1x64 := by
  show StableHlo.after hostOps1 (W2 m ρ c) (Proc.devRef .tc main_v31) = _
  after_results_simp
  rw [w2_arg7]
  rfl
theorem w3_arg1 : W3 m ρ c (Proc.devRef .tc main_arg1) = m ((c : Thread nD τ).loc main_arg1) := by
  show StableHlo.after hostOps1 (W2 m ρ c) (Proc.devRef .tc main_arg1) = _
  after_results_simp
  exact w2_arg1 m ρ c
theorem w3_arg2 : W3 m ρ c (Proc.devRef .tc main_arg2) = m ((c : Thread nD τ).loc main_arg2) := by
  show StableHlo.after hostOps1 (W2 m ρ c) (Proc.devRef .tc main_arg2) = _
  after_results_simp
  exact w2_arg2 m ρ c
theorem w3_arg8 : W3 m ρ c (Proc.devRef .tc main_arg8) = m ((c : Thread nD τ).loc main_arg8) := by
  show StableHlo.after hostOps1 (W2 m ρ c) (Proc.devRef .tc main_arg8) = _
  after_results_simp
  exact w2_arg8 m ρ c
theorem w3_arg9 : W3 m ρ c (Proc.devRef .tc main_arg9) = m ((c : Thread nD τ).loc main_arg9) := by
  show StableHlo.after hostOps1 (W2 m ρ c) (Proc.devRef .tc main_arg9) = _
  after_results_simp
  exact w2_arg9 m ρ c

/-! ## After region 1 -/

/-- Region 1's output is the second layer on the gathered rows. -/
theorem w4_v32 : W4 m ρ c (Proc.devRef .tc main_v32) = kXev (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (arr1 (V3 m ρ) c)).trans ?_
  rw [v3_v26, v3_v19, v3_v28, v3_v30, v3_v31]
  rfl
theorem w4_v12 : W4 m ρ c (Proc.devRef .tc main_v12) = kXe (m ((c : Thread nD τ).loc main_arg0)) (m ((c : Thread nD τ).loc main_arg2)) (m ((c : Thread nD τ).loc main_arg3)) (m ((c : Thread nD τ).loc main_arg4)) (m ((c : Thread nD τ).loc main_arg5)) :=
  (W4_of_ne m ρ c main_v12 (by decide)).trans (w3_v12 m ρ c)
theorem w4_arg1 : W4 m ρ c (Proc.devRef .tc main_arg1) = m ((c : Thread nD τ).loc main_arg1) :=
  (W4_of_ne m ρ c main_arg1 (by decide)).trans (w3_arg1 m ρ c)
theorem w4_arg2 : W4 m ρ c (Proc.devRef .tc main_arg2) = m ((c : Thread nD τ).loc main_arg2) :=
  (W4_of_ne m ρ c main_arg2 (by decide)).trans (w3_arg2 m ρ c)
theorem w4_arg8 : W4 m ρ c (Proc.devRef .tc main_arg8) = m ((c : Thread nD τ).loc main_arg8) :=
  (W4_of_ne m ρ c main_arg8 (by decide)).trans (w3_arg8 m ρ c)
theorem w4_arg9 : W4 m ρ c (Proc.devRef .tc main_arg9) = m ((c : Thread nD τ).loc main_arg9) :=
  (W4_of_ne m ρ c main_arg9 (by decide)).trans (w3_arg9 m ρ c)

/-! ## After the third host stretch (region 2's entry) -/

/-- The vertex sums. -/
theorem v5_v35 : V5 m ρ c main_v35 = kXv (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v35) = _
  after_results
  rw [w4_v32, w4_arg2]
  rfl
theorem v5_arg1 : V5 m ρ c main_arg1 = (m ((c : Thread nD τ).loc main_arg1)) := by
  show StableHlo.after hostOps2 (W4 m ρ c) (Proc.devRef .tc main_arg1) = _
  after_results
  exact w4_arg1 m ρ c
theorem v5_v36 : V5 m ρ c main_v36 = transpose S64x64 [1, 0] (m ((c : Thread nD τ).loc main_arg8)) transposes_S64x64_S64x64_1_0 := by
  show StableHlo.after hostOps2 (W4 m ρ c) (Proc.devRef .tc main_v36) = _
  after_results
  rw [w4_arg8]
theorem v5_v37 : V5 m ρ c main_v37 = shapeCast S1x64 (m ((c : Thread nD τ).loc main_arg9)) shapeCasts_S64_S1x64 := by
  show StableHlo.after hostOps2 (W4 m ρ c) (Proc.devRef .tc main_v37) = _
  after_results
  rw [w4_arg9]
  rfl
theorem w5_v12 : W5 m ρ c (Proc.devRef .tc main_v12) = kXe (m ((c : Thread nD τ).loc main_arg0)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v12) = _
  after_results
  exact w4_v12 m ρ c

/-! ## At the return -/

/-- The first result: the last layer. -/
theorem out_eq : W6 m ρ c (Proc.devRef .tc main_v38) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W6_arr m ρ c 4).trans (arr2 (V5 m ρ) c)).trans ?_
  rw [v5_v35, v5_arg1, v5_v36, v5_v37]
  rfl

/-- The second result: the hyperedge sums. -/
theorem xe_eq : W6 m ρ c (Proc.devRef .tc main_v12) = kXe (m ((c : Thread nD τ).loc main_arg0)) (m ((c : Thread nD τ).loc main_arg2)) (m ((c : Thread nD τ).loc main_arg3)) (m ((c : Thread nD τ).loc main_arg4)) (m ((c : Thread nD τ).loc main_arg5)) :=
  (W6_of_ne m ρ c main_v12 (by decide)).trans (w5_v12 m ρ c)

end Cert.KernelIdeal.Fold

end
-- ==== Proof.DenseLaws.lean ====
import Idealize.ShloMosaic.PureOps.Ideal.Laws
import Idealize.ShloMosaic.Lib.ValueIdx
import Idealize.ShloMosaic.Lib.ValueLayout
import Idealize.ShloMosaic.Lib.Pipeline.Value
import proofs.«170187_j50233937494095_1_alg».proof.Proof.LibPlainDot

noncomputable section

open scoped BigOperators

/-! # Two laws joining the kernel's arrangement to the reference's

* A vector laid out as one row: the reshape `[n] → [1, n]` and the broadcast `[n] → [1, n]` along axis 1 are the
  same array.
* A product with a matrix whose 128 rows split into two groups of 64: `[A | B] · Wᵀ` is `A · W₁ᵀ + B · W₂ᵀ`
  where `W₁`, `W₂` are columns `0 … 63` and `64 … 127` of `W`. On the extended reals this is only a regrouping
  of one sum of 128 products into two sums of 64: associativity of addition, nothing else. -/

namespace Cert.DenseLaws

open Idealize.ShloMosaic Idealize.ShloMosaic.ValueIdx

variable {α : Type}

/-- The reshape of a vector to one row is its broadcast along the columns. -/
theorem reshape_row_eq_broadcast {n : ℕ} (b : (⟨1, ![n]⟩ : Shape).Idx → α)
    (hc : (⟨1, ![n]⟩ : Shape).ShapeCasts ⟨2, ![1, n]⟩)
    (h1 : (⟨1, ![n]⟩ : Shape).BroadcastsInDim ⟨2, ![1, n]⟩ (![1] : Fin 1 → Fin 2)) :
    shapeCast ⟨2, ![1, n]⟩ b hc = broadcastInDim ⟨2, ![1, n]⟩ ![1] h1 b := by
  funext y
  obtain ⟨u, q, rfl⟩ : ∃ (u : Fin 1) (q : Fin n), y = ix2 u q := ⟨y 0, y 1, eq_ix2 y⟩
  rw [shapeCast_a_1a_apply]
  refine Eq.symm (broadcastInDim_apply ![1] h1 b (ix2 u q) (ix1 q) fun a => ?_)
  match a with
  | ⟨0, _⟩ =>
    show q.val = if n = 1 then 0 else q.val
    split
    · have := q.isLt; omega
    · rfl

/-- Entry `(k, c)` of the transpose of columns `o … o + 63` of a `[64, 128]` matrix is its entry `(c, o + k)`. -/
theorem transpose_slice_apply (o : ℕ) (ho : o + 64 ≤ 128) (W : (⟨2, ![64, 128]⟩ : Shape).Idx → α)
    (hs : (⟨2, ![64, 128]⟩ : Shape).Slices ![0, o] ⟨2, ![64, 64]⟩)
    (ht : (⟨2, ![64, 64]⟩ : Shape).Transposes [1, 0] ⟨2, ![64, 64]⟩) (k c : Fin 64) :
    transpose ⟨2, ![64, 64]⟩ [1, 0] (extractStridedSlice ⟨2, ![64, 64]⟩ ![0, o] W hs) ht (ix2 k c)
      = W (ix2 c ⟨o + k.val, by have := k.isLt; omega⟩) := by
  refine (transpose_apply [1, 0] _ ht (ix2 k c) (ix2 c k) fun b => ?_).trans ?_
  · match b with
    | ⟨0, _⟩ => rfl
    | ⟨1, _⟩ => rfl
  · refine extractStridedSlice_apply ![0, o] W hs (ix2 c k) _ fun a => ?_
    match a with
    | ⟨0, _⟩ => show c.val = 0 + c.val; omega
    | ⟨1, _⟩ => rfl

/-- Entry `(k, c)` of the transpose of a `[64, 128]` matrix is its entry `(c, k)`. -/
theorem transpose_apply2 (W : (⟨2, ![64, 128]⟩ : Shape).Idx → α)
    (ht : (⟨2, ![64, 128]⟩ : Shape).Transposes [1, 0] ⟨2, ![128, 64]⟩) (k : Fin 128) (c : Fin 64) :
    transpose ⟨2, ![128, 64]⟩ [1, 0] W ht (ix2 k c) = W (ix2 c k) := by
  refine transpose_apply [1, 0] W ht (ix2 k c) (ix2 c k) fun b => ?_
  match b with
  | ⟨0, _⟩ => rfl
  | ⟨1, _⟩ => rfl

/-- `[A | B] · Wᵀ = A · W₁ᵀ + B · W₂ᵀ`, entry by entry the sum over 128 products regrouped as 64 + 64. -/
theorem dot_concat_split {M : ℕ} (d : DotDims ⟨2, ![M, 128]⟩ ⟨2, ![128, 64]⟩ ⟨2, ![M, 64]⟩) (hd : d = DotDims.plain M 128 64)
    (A B : FVec Ideal ⟨2, ![M, 64]⟩ .f32) (W : FVec Ideal ⟨2, ![64, 128]⟩ .f32)
    (hc : Shape.Concatenates [(⟨2, ![M, 64]⟩ : Shape), ⟨2, ![M, 64]⟩] ⟨2, ![M, 128]⟩ 1)
    (ht : (⟨2, ![64, 128]⟩ : Shape).Transposes [1, 0] ⟨2, ![128, 64]⟩)
    (hs0 : (⟨2, ![64, 128]⟩ : Shape).Slices ![0, 0] ⟨2, ![64, 64]⟩)
    (hs1 : (⟨2, ![64, 128]⟩ : Shape).Slices ![0, 64] ⟨2, ![64, 64]⟩)
    (ht' : (⟨2, ![64, 64]⟩ : Shape).Transposes [1, 0] ⟨2, ![64, 64]⟩) :
    addf (Host.dotGeneral (DotDims.plain M 64 64) none A (transpose ⟨2, ![64, 64]⟩ [1, 0] (extractStridedSlice ⟨2, ![64, 64]⟩ ![0, 0] W hs0) ht'))
         (Host.dotGeneral (DotDims.plain M 64 64) none B (transpose ⟨2, ![64, 64]⟩ [1, 0] (extractStridedSlice ⟨2, ![64, 64]⟩ ![0, 64] W hs1) ht'))
      = Host.dotGeneral d none (concatenate ⟨2, ![M, 128]⟩ 1 [⟨⟨2, ![M, 64]⟩, A⟩, ⟨⟨2, ![M, 64]⟩, B⟩] hc) (transpose ⟨2, ![128, 64]⟩ [1, 0] W ht) := by
  funext j
  obtain ⟨r, c, rfl⟩ : ∃ (r : Fin M) (c : Fin 64), j = ix2 r c := ⟨j 0, j 1, eq_ix2 j⟩
  rw [addf_apply]
  refine (congrArg₂ (· + ·)
    (Cert.PlainDot.dotGeneral_apply (DotDims.plain M 64 64) rfl none .single A _ (ix2 r c))
    (Cert.PlainDot.dotGeneral_apply (DotDims.plain M 64 64) rfl none .single B _ (ix2 r c))).trans ?_
  refine Eq.trans ?_ (Cert.PlainDot.dotGeneral_apply d hd none .single _ _ (ix2 r c)).symm
  show _ = ∑ k : Fin (64 + 64), _
  rw [Fin.sum_univ_add]
  refine congrArg₂ (· + ·) (Finset.sum_congr rfl fun k _ => ?_) (Finset.sum_congr rfl fun k _ => ?_)
  · refine congrArg₂ (· * ·) ?_ ?_
    · refine Eq.symm (concatenate_pair_apply_left 1 A B hc _ rfl (ix2 r k) fun b => ?_)
      match b with
      | ⟨0, _⟩ => rfl
      | ⟨1, _⟩ => rfl
    · refine (transpose_slice_apply 0 (by omega) W hs0 ht' k c).trans ?_
      refine Eq.symm ((transpose_apply2 W ht (Fin.castAdd 64 k) c).trans (congrArg W ?_))
      funext a
      match a with
      | ⟨0, _⟩ => rfl
      | ⟨1, _⟩ => exact Fin.ext (by show k.val = 0 + k.val; omega)
  · refine congrArg₂ (· * ·) ?_ ?_
    · refine Eq.symm (concatenate_pair_apply_right 1 A B hc _ rfl rfl (ix2 r k) (fun b hb => ?_) ?_)
      · match b with
        | ⟨0, _⟩ => rfl
        | ⟨1, _⟩ => exact absurd rfl hb
      · show k.val + 64 = 64 + k.val; omega
    · refine (transpose_slice_apply 64 (by omega) W hs1 ht' k c).trans ?_
      exact Eq.symm ((transpose_apply2 W ht (Fin.natAdd 64 k) c).trans (congrArg W (funext fun a => by
        match a with
        | ⟨0, _⟩ => rfl
        | ⟨1, _⟩ => rfl)))

end Cert.DenseLaws

end
-- ==== Proof.Bridge.lean ====
import proofs.«170187_j50233937494095_1_alg».proof.ReferenceIdeal
import proofs.«170187_j50233937494095_1_alg».proof.Proof.Gen.ReferenceIdeal
import proofs.«170187_j50233937494095_1_alg».proof.Proof.Stages
import proofs.«170187_j50233937494095_1_alg».proof.Proof.DenseLaws

noncomputable section

/-! # The reference's stages are the kernel program's

The reference computes the same chain: first layer, gather by vertex, sum by hyperedge, gather back, second layer,
sum by vertex, mix, last layer. Written stage by stage over the ten argument arrays, each stage of the reference
equals the kernel program's stage. The gathers, the scatter-adds and the mix are the same operations on both
sides, so they only carry an equality through. The layers differ in two places: the bias vector enters as a
broadcast on one side and a reshape on the other (the same one-row array), and the second layer multiplies the
concatenation `[X[vertex] | Xe[edges]]` by `W2ᵀ` where the kernel adds two products with the halves of `W2` (one
sum of 128 products regrouped as 64 + 64). -/

namespace Cert.RefStage

open Idealize.ShloMosaic
open Cert.KernelIdeal.Stage Cert.KernelIdeal.RowValue

variable (a0 a1 : FVec Ideal Cert.ReferenceIdeal.S100000x64 .f32)
  (a2 a3 : (⟨Cert.ReferenceIdeal.S1000000, .i32⟩ : BufTy).Contents (Elt Ideal))
  (a4 : FVec Ideal Cert.ReferenceIdeal.S64x64 .f32) (a5 : FVec Ideal Cert.ReferenceIdeal.S64 .f32)
  (a6 : FVec Ideal Cert.ReferenceIdeal.S64x128 .f32) (a7 : FVec Ideal Cert.ReferenceIdeal.S64 .f32)
  (a8 : FVec Ideal Cert.ReferenceIdeal.S64x64 .f32) (a9 : FVec Ideal Cert.ReferenceIdeal.S64 .f32)

section Defs
open Cert.ReferenceIdeal Cert.ReferenceIdeal.Gen

/-- The reference's first layer. -/
def rLin1 : FVec Ideal S100000x64 .f32 :=
  addf (Host.dotGeneral (F := Ideal) dot_S100000x64_S64x64_S100000x64_1_0_0_1_n_n none a0 (transpose S64x64 [1, 0] a4 transposes_S64x64_S64x64_1_0))
    (broadcastInDim S100000x64 ![0, 1] bcast_S1x64_S100000x64_0_1 (broadcastInDim S1x64 ![1] bcast_S64_S1x64_1 a5))

/-- The reference's wrapped vertex indices, as a column. -/
def rIdxV : (⟨S1000000x1, .i32⟩ : BufTy).Contents (Elt Ideal) :=
  broadcastInDim S1000000x1 ![0] bcast_S1000000_S1000000x1_0
    (select (cmpi .slt a2 (broadcastInDim S1000000 ![] bcast_S_S1000000 (constantI S_ 32 0#32)))
      (addi a2 (broadcastInDim S1000000 ![] bcast_S_S1000000 (constantI S_ 32 100000#32))) a2)

/-- The reference's wrapped hyperedge indices, as a column. -/
def rIdxE : (⟨S1000000x1, .i32⟩ : BufTy).Contents (Elt Ideal) :=
  broadcastInDim S1000000x1 ![0] bcast_S1000000_S1000000x1_0
    (select (cmpi .slt a3 (broadcastInDim S1000000 ![] bcast_S_S1000000 (constantI S_ 32 0#32)))
      (addi a3 (broadcastInDim S1000000 ![] bcast_S_S1000000 (constantI S_ 32 20000#32))) a3)

/-- The reference's hyperedge sums. -/
def rXe : FVec Ideal S20000x64 .f32 :=
  Host.scatterAdd (F := Ideal) scatter_S20000x64_S1000000x1_S1000000x64_1_0_0_1
    (broadcastInDim S20000x64 ![] bcast_S_S20000x64 (constant (F := Ideal) S_ .f32 0x00000000#32))
    (broadcastInDim S1000000x1 ![0] bcast_S1000000_S1000000x1_0 a3)
    (Host.gather gather_S100000x64_S1000000x1_S1000000x64_1_0_n_n_0_1_164 (rLin1 a0 a4 a5) (rIdxV a2))

/-- The reference's second layer on the concatenated rows. -/
def rXev : FVec Ideal S1000000x64 .f32 :=
  addf (Host.dotGeneral (F := Ideal) dot_S1000000x128_S128x64_S1000000x64_1_0_0_1_n_n none
      (concatenate S1000000x128 1
        [⟨S1000000x64, Host.gather gather_S100000x64_S1000000x1_S1000000x64_1_0_n_n_0_1_164 a0 (rIdxV a2)⟩,
         ⟨S1000000x64, Host.gather gather_S20000x64_S1000000x1_S1000000x64_1_0_n_n_0_1_164 (rXe a0 a2 a3 a4 a5) (rIdxE a3)⟩]
        concatenates_S1000000x64_S1000000x64_S1000000x128_d1)
      (transpose S128x64 [1, 0] a6 transposes_S64x128_S128x64_1_0))
    (broadcastInDim S1000000x64 ![0, 1] bcast_S1x64_S1000000x64_0_1 (broadcastInDim S1x64 ![1] bcast_S64_S1x64_1 a7))

/-- The reference's vertex sums. -/
def rXv : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 a2)
    (rXev a0 a2 a3 a4 a5 a6 a7)

/-- The reference's result: the mix, the last layer. -/
def rOut : FVec Ideal S100000x64 .f32 :=
  addf (Host.dotGeneral (F := Ideal) dot_S100000x64_S64x64_S100000x64_1_0_0_1_n_n none
      (addf (mulf (broadcastInDim S100000x64 ![] bcast_S_S100000x64 (constant (F := Ideal) S_ .f32 0x3F000000#32)) (rXv a0 a2 a3 a4 a5 a6 a7))
        (mulf (broadcastInDim S100000x64 ![] bcast_S_S100000x64 (constant (F := Ideal) S_ .f32 0x3F000000#32)) a1))
      (transpose S64x64 [1, 0] a8 transposes_S64x64_S64x64_1_0))
    (broadcastInDim S100000x64 ![0, 1] bcast_S1x64_S100000x64_0_1 (broadcastInDim S1x64 ![1] bcast_S64_S1x64_1 a9))

end Defs

/-- The first layers agree: the bias row is the same array either way. -/
theorem lin1_eq : rLin1 a0 a4 a5 = kLin1 a0 a4 a5 := by
  unfold rLin1 kLin1 linBias
  rw [Cert.DenseLaws.reshape_row_eq_broadcast a5 _ Cert.ReferenceIdeal.Gen.bcast_S64_S1x64_1]
  rfl

/-- The wrapped indices are the same operations. -/
theorem idxV_eq : rIdxV a2 = kIdxV a2 := rfl
theorem idxE_eq : rIdxE a3 = kIdxE a3 := rfl

/-- The hyperedge sums agree. -/
theorem xe_eq : rXe a0 a2 a3 a4 a5 = kXe a0 a2 a3 a4 a5 := by
  unfold rXe kXe
  rw [lin1_eq, idxV_eq]
  rfl

/-- The second layers agree: one product with the concatenation against two products with the halves. -/
theorem xev_eq : rXev a0 a2 a3 a4 a5 a6 a7 = kXev a0 a2 a3 a4 a5 a6 a7 := by
  unfold rXev kXev mlp2
  rw [xe_eq, idxV_eq, idxE_eq]
  exact congrArg₂ addf
    (Cert.DenseLaws.dot_concat_split Cert.ReferenceIdeal.dot_S1000000x128_S128x64_S1000000x64_1_0_0_1_n_n rfl _ _ a6
      Cert.ReferenceIdeal.Gen.concatenates_S1000000x64_S1000000x64_S1000000x128_d1 Cert.ReferenceIdeal.Gen.transposes_S64x128_S128x64_1_0
      Cert.KernelIdeal.Gen.slices_S64x128_S64x64_0_0 Cert.KernelIdeal.Gen.slices_S64x128_S64x64_0_64 Cert.KernelIdeal.Gen.transposes_S64x64_S64x64_1_0).symm
    (congrArg (broadcastInDim Cert.ReferenceIdeal.S1000000x64 ![0, 1] Cert.ReferenceIdeal.Gen.bcast_S1x64_S1000000x64_0_1)
      (Cert.DenseLaws.reshape_row_eq_broadcast a7 Cert.KernelIdeal.Gen.shapeCasts_S64_S1x64 Cert.ReferenceIdeal.Gen.bcast_S64_S1x64_1).symm)

/-- The vertex sums agree. -/
theorem xv_eq : rXv a0 a2 a3 a4 a5 a6 a7 = kXv a0 a2 a3 a4 a5 a6 a7 := by
  unfold rXv kXv
  rw [xev_eq]
  rfl

/-- The results agree. -/
theorem out_eq : rOut a0 a1 a2 a3 a4 a5 a6 a7 a8 a9 = kOut a0 a1 a2 a3 a4 a5 a6 a7 a8 a9 := by
  unfold rOut kOut mixLin
  rw [xv_eq, Cert.DenseLaws.reshape_row_eq_broadcast a9 _ Cert.ReferenceIdeal.Gen.bcast_S64_S1x64_1]
  rfl

end Cert.RefStage

end
-- ==== Proof.lean ====
/- Two-hop hypergraph message passing: a dense layer on the vertices, gather by vertex and sum by hyperedge, a
   second dense layer on every incidence (the vertex's row beside its hyperedge's sum), sum by vertex, an even mix
   with the second input and a last dense layer. The kernel program runs the three dense layers as kernels on blocks
   of 5000 rows and the gathers and sums on the host; the reference runs everything on the host.

   On the extended reals the two compute the same arrays. Each kernel region leaves in its output array the host
   expression of its dense layer (`RegionValues`, from the bodies' values on a block of rows, `PayloadRows`); the
   buffers are followed through the program to the two results (`Fold`, over the run of `KernelRun`); and stage
   by stage the reference's chain equals the kernel program's (`Bridge`): the gathers, sums and the mix are the
   same operations, the bias row is the same array whether reshaped or broadcast, and the second layer's product
   with the concatenation is the sum of the two products with the halves of its matrix (`DenseLaws`: one sum of
   128 products regrouped as 64 + 64, which needs no finiteness). -/
import proofs.«170187_j50233937494095_1_alg».proof.Defs
import proofs.«170187_j50233937494095_1_alg».proof.Proof.Gen.Kernel
import proofs.«170187_j50233937494095_1_alg».proof.Proof.Gen.Kernel.Skeleton
import proofs.«170187_j50233937494095_1_alg».proof.Proof.Gen.Kernel.Launch
import proofs.«170187_j50233937494095_1_alg».proof.Proof.Gen.Kernel.Points
import proofs.«170187_j50233937494095_1_alg».proof.Proof.Gen.Kernel.Frame
import proofs.«170187_j50233937494095_1_alg».proof.Proof.Gen.KernelIdeal
import proofs.«170187_j50233937494095_1_alg».proof.Proof.Gen.KernelIdeal.Skeleton
import proofs.«170187_j50233937494095_1_alg».proof.Proof.Gen.KernelIdeal.Launch
import proofs.«170187_j50233937494095_1_alg».proof.Proof.Gen.KernelIdeal.Points
import proofs.«170187_j50233937494095_1_alg».proof.Proof.Gen.KernelIdeal.Frame
import proofs.«170187_j50233937494095_1_alg».proof.Proof.Gen.ReferenceIdeal
import proofs.«170187_j50233937494095_1_alg».proof.Proof.Gen.Pre_finite_inputs
import proofs.«170187_j50233937494095_1_alg».proof.Proof.Gen.ReferenceIdeal.Run
import proofs.«170187_j50233937494095_1_alg».proof.Proof.Gen.ReferenceIdeal.Read
import proofs.«170187_j50233937494095_1_alg».proof.Proof.KernelRun
import proofs.«170187_j50233937494095_1_alg».proof.Proof.Fold
import proofs.«170187_j50233937494095_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- The idealized kernel program runs and keeps its arguments. -/
theorem frame_ki : @Cert.frame_KernelIdeal Cert.KernelIdeal.Gen.facts Cert.Pre_finite_inputs.Gen.facts :=
  fun m ρ _ => Cert.KernelIdeal.Gen.frame m ρ

/-- The reference runs and keeps its arguments: its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the last layer's output and the hyperedge sums, as functions of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Stage.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Stage.kXe (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.GenRun.run_named (F := Ideal) m ρ)
    exact ⟨(h c).1.trans (Cert.KernelIdeal.Fold.out_eq m ρ c), (h c).2.1.trans (Cert.KernelIdeal.Fold.xe_eq m ρ c), (h c).2.2⟩
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    refine ⟨(h c).1.trans ?_, (h c).2.1.trans ?_, (h c).2.2⟩
    · rw [e0, e1, e2, e3, e4, e5, e6, e7, e8, e9]
      exact Cert.RefStage.out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    · rw [e0, e2, e3, e4, e5]
      exact Cert.RefStage.xe_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
